-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Spec.lean ====
/-
  The layer's result, entry by entry, and the one law of sums that joins the two programs.

  For a 4096 × 4096 array x of inputs, a 4096 × 4096 array W of weights and a vector b of 4096 biases the layer's
  result at row R and column C is

      max (∑ q, x (R, q) · W (C, q) + b C) 0,

  the inner product of row R of x with row C of W, shifted by the bias of column C and cut off below at zero.

  One program forms the inner product in a single sum over the 4096 columns q. The other splits the columns into
  eight strips of 512 consecutive ones, forms each strip's share of the product, and adds the eight shares one after
  the other onto zero. Over the extended reals addition is commutative and associative without exception (only
  cancellation and distributivity fail at the infinities, and neither is used), so a sum may be regrouped freely:
  the sum over q below 8 · 512 is the sum over the strips s below 8 of the sums over r below 512 of the terms at
  q = 512 s + r (`sum_by_strips`, `rowDot_eq_sum_strips`). No finiteness of the inputs is needed.
-/
import Idealize.ShloMosaic.PureOps.Ideal.Laws
import Idealize.ShloMosaic.Lib.ValueIdx

noncomputable section

open scoped BigOperators

namespace Cert.ReluLayer

open Idealize.ShloMosaic Idealize.ShloMosaic.ValueIdx

/-! ## A sum over a range cut into strips of equal length -/

/-- A sum over the numbers below a · b, cut into a strips of b consecutive numbers each: the number q = b s + r
    lies in strip s at place r, and every number below a · b is met exactly once. Only the index set is renamed
    and the sum regrouped, so this holds in any commutative monoid. -/
theorem sum_by_strips {β : Type*} [AddCommMonoid β] (a b : ℕ) (F : ℕ → β) :
    ∑ q : Fin (a * b), F q.val = ∑ s ∈ Finset.range a, ∑ r : Fin b, F (b * s + r.val) := by
  rw [← Fin.sum_univ_eq_sum_range (fun s => ∑ r : Fin b, F (b * s + r.val)) a,
    ← Equiv.sum_comp finProdFinEquiv (fun q : Fin (a * b) => F q.val), Fintype.sum_prod_type]
  refine Finset.sum_congr rfl fun s _ => Finset.sum_congr rfl fun r _ => ?_
  rw [finProdFinEquiv_apply_val, add_comm]

/-! ## Rows of the two square arrays, with the column given as a number -/

/-- Entry (R, q) of a 4096 × 4096 array, the column q given as a natural number; past the last column it is zero
    (a value no statement below ever meets: every column it is asked for is below 4096). -/
def at2 (a : FVec Ideal ⟨2, ![4096, 4096]⟩ .f32) (R : Fin 4096) (q : ℕ) : EReal :=
  if h : q < 4096 then a (ix2 R ⟨q, h⟩) else 0

/-- At a column below 4096 it is the array's entry. -/
theorem at2_val (a : FVec Ideal ⟨2, ![4096, 4096]⟩ .f32) (R q : Fin 4096) : at2 a R q.val = a (ix2 R q) :=
  dif_pos q.isLt

/-- The same with the bound given apart from the number. -/
theorem at2_of_lt (a : FVec Ideal ⟨2, ![4096, 4096]⟩ .f32) (R : Fin 4096) (q : ℕ) (h : q < 4096) :
    at2 a R q = a (ix2 R ⟨q, h⟩) := dif_pos h

/-! ## The inner product of two rows, whole and by strips -/

/-- The inner product of row R of x with row C of W. -/
def rowDot (x W : FVec Ideal ⟨2, ![4096, 4096]⟩ .f32) (R C : Fin 4096) : EReal :=
  ∑ q : Fin 4096, x (ix2 R q) * W (ix2 C q)

/-- Strip s's share of that inner product: the terms at the columns 512 s, …, 512 s + 511. -/
def stripDot (x W : FVec Ideal ⟨2, ![4096, 4096]⟩ .f32) (R C : Fin 4096) (s : ℕ) : EReal :=
  ∑ r : Fin 512, at2 x R (512 * s + r.val) * at2 W C (512 * s + r.val)

/-- The inner product is the sum of its eight strips' shares. -/
theorem rowDot_eq_sum_strips (x W : FVec Ideal ⟨2, ![4096, 4096]⟩ .f32) (R C : Fin 4096) :
    rowDot x W R C = ∑ s ∈ Finset.range 8, stripDot x W R C s := by
  have h := sum_by_strips 8 512 (fun q => at2 x R q * at2 W C q)
  unfold rowDot stripDot
  rw [← h]
  exact Finset.sum_congr rfl fun q _ => by rw [at2_val, at2_val]

/-! ## The layer -/

/-- The layer's result at row R and column C: the rows' inner product plus the column's bias, cut off below at
    zero (the zero spelt as the word both programs print for it). -/
def entry (x W : FVec Ideal ⟨2, ![4096, 4096]⟩ .f32) (b : FVec Ideal ⟨1, ![4096]⟩ .f32) (R C : Fin 4096) : EReal :=
  max (rowDot x W R C + b (ix1 C)) (Ideal.ofBits .f32 0x00000000#32)

/-- The layer's result as one array, a function of the three argument arrays. -/
def layer (x W : FVec Ideal ⟨2, ![4096, 4096]⟩ .f32) (b : FVec Ideal ⟨1, ![4096]⟩ .f32) :
    FVec Ideal ⟨2, ![4096, 4096]⟩ .f32 :=
  fun e => entry x W b (e 0) (e 1)

/-- The result read at the index with coordinates R and C. -/
theorem layer_apply (x W : FVec Ideal ⟨2, ![4096, 4096]⟩ .f32) (b : FVec Ideal ⟨1, ![4096]⟩ .f32) (R C : Fin 4096) :
    layer x W b (ix2 R C) = entry x W b R C := rfl

end Cert.ReluLayer

end
-- ==== Proof.RefValue.lean ====
/-
  The reference computes the layer.

  The reference multiplies the inputs by the transpose of the weights in one product over all 4096 columns, spreads
  the bias vector over the rows, adds, and keeps the larger of each entry and zero. Read at the entry with row R and
  column C, operation by operation, that is

      max (∑ q, x (R, q) · W (C, q) + b C) 0,

  the layer's entry as the specification states it: the product reads the inputs at (R, q) and the weights at (C, q);
  the two spreading steps read the bias at C; the constant is zero everywhere. Nothing but the indices is computed.
-/
import proofs.«128165_j3977139716222_1_alg».proof.Proof.Gen.ReferenceIdeal.Read
import proofs.«128165_j3977139716222_1_alg».proof.Proof.Spec

noncomputable section

open scoped BigOperators

namespace Cert.ReferenceIdeal.RefValue

open Cert.ReferenceIdeal Cert.ReferenceIdeal.Read Idealize.ShloMosaic Idealize.ShloMosaic.ValueIdx Cert.ReluLayer

/-- At entry (R, C) and column q the product reads the inputs at (R, q). -/
theorem left_at (R C q : Fin 4096) : lidx_main_v0 (ix2 R C) q = ix2 R q :=
  funext fun a => Fin.ext (by match a with | ⟨0, _⟩ => rfl | ⟨1, _⟩ => rfl)

/-- At entry (R, C) and column q the product reads the weights at (C, q): row C of the weights, not column C. -/
theorem right_at (R C q : Fin 4096) : ridx_main_v0 (ix2 R C) q = ix2 C q :=
  funext fun a => Fin.ext (by match a with | ⟨0, _⟩ => rfl | ⟨1, _⟩ => rfl)

/-- The bias spread over the rows is read, at entry (R, C), at C. -/
theorem bias_at (R C : Fin 4096) : idx_main_v1 (idx_main_v2 (ix2 R C)) = ix1 C :=
  funext fun a => Fin.ext (by match a with | ⟨0, _⟩ => rfl)

/-- The reference's result is the layer of its three arguments. -/
theorem result_eq (x W : FVec Ideal S4096x4096 .f32) (b : FVec Ideal S4096 .f32) :
    val_main_v5 (F := Ideal) x W b = layer x W b := by
  funext e
  obtain ⟨R, C, rfl⟩ : ∃ (R C : Fin 4096), e = ix2 R C := ⟨e 0, e 1, eq_ix2 e⟩
  rw [val_main_v5_apply, val_main_v3_apply, val_main_v0_apply, val_main_v2_apply, val_main_v1_apply,
    val_main_v4_apply, val_main_cst_apply, layer_apply]
  simp only [left_at, right_at, bias_at]
  rfl

end Cert.ReferenceIdeal.RefValue

end
-- ==== Proof.Payload.lean ====
/-
  What one grid point's arithmetic computes, entry by entry, at the ideal values.

  A grid point holds a 1024 × 512 block a of inputs, a 1024 × 512 block w of weights, a 1 × 1024 block of biases and
  a 1024 × 1024 accumulator. Its body does three things.

  * At the first point of a run it overwrites the accumulator with zeros.
  * At every point it adds to the accumulator the product of a with the TRANSPOSE of w: both factors are contracted
    along their second axis, so the product's entry (p, p') is the inner product of row p of a with row p' of w,

        ∑ r < 512, a (p, r) · w (p', r).

    The two factors are first narrowed to a shorter float format, which on the extended reals changes nothing.
  * At the last point of a run it adds the bias of column p' to the accumulator's entry (p, p') and keeps the
    larger of that number and zero.

  Each lemma below reads one of these at an entry. The product is a sum over the contraction's index set, which has a
  single axis of extent 512; the sum is renamed to a sum over the numbers below 512.
-/
import proofs.«128165_j3977139716222_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## Where the two factors of the block product are read -/

/-- The left factor's row is the result's row: its axis 0 is the left factor's free axis. -/
theorem left_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl

/-- The left factor's column is the contraction's coordinate: its axis 1 is the contracted one. -/
theorem left_col (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q

/-- The right factor's row is the result's COLUMN: its axis 0 is the right factor's free axis, the second of the
    result's axes. -/
theorem right_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- The right factor's column is the contraction's coordinate as well: both factors are contracted along axis 1. -/
theorem right_col (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-! ## The block product at an entry -/

/-- The product of a 1024 × 512 block with the transpose of another, accumulated into zeros, at entry (p, p'): the
    inner product of row p of the first with row p' of the second. -/
theorem product_apply (a w : FVec Ideal S1024x512 .bf16) (p p' : Fin 1024) :
    matmul dot_S1024x512_S1024x512_S1024x1024_1_1_0_0_n_n none a w (constant S1024x1024 .f32 0x00000000#32) (ix2 p p')
      = ∑ r : Fin 512, a (ix2 p r) * w (ix2 p' r) := by
  simp only [matmul]
  rw [Ideal.matmul_constant_zero_apply, ← Equiv.sum_comp (contrEquiv1 dot_S1024x512_S1024x512_S1024x1024_1_1_0_0_n_n 512 rfl rfl).symm]
  refine Finset.sum_congr rfl fun r _ => ?_
  have hr := contrEquiv1_symm_val dot_S1024x512_S1024x512_S1024x1024_1_1_0_0_n_n 512 rfl rfl r
  have el : dot_S1024x512_S1024x512_S1024x1024_1_1_0_0_n_n.lhsIdx (ix2 p p') ((contrEquiv1 dot_S1024x512_S1024x512_S1024x1024_1_1_0_0_n_n 512 rfl rfl).symm r) = ix2 p r := funext fun ax => Fin.ext (by
    match ax with
    | ⟨0, _⟩ => exact left_row _ _
    | ⟨1, _⟩ => exact (left_col _ _).trans hr)
  have er : dot_S1024x512_S1024x512_S1024x1024_1_1_0_0_n_n.rhsIdx (ix2 p p') ((contrEquiv1 dot_S1024x512_S1024x512_S1024x1024_1_1_0_0_n_n 512 rfl rfl).symm r) = ix2 p' r := funext fun ax => Fin.ext (by
    match ax with
    | ⟨0, _⟩ => exact right_row _ _
    | ⟨1, _⟩ => exact (right_col _ _).trans hr)
  rw [el, er]

/-! ## The three payloads at an entry -/

/-- The reset value is zero everywhere. -/
theorem reset_apply (e : S1024x1024.Idx) : k0_pay1 (F := Ideal) e = 0 := by
  unfold k0_pay1
  rw [shapeCast_self]
  exact Ideal.ofBits_zero_f32

/-- The accumulation step at entry (p, p'): what the accumulator held there plus the inner product of row p of the
    input block with row p' of the weight block. -/
theorem step_apply (a w : Vec Ideal S1024x512 .f32) (acc : Vec Ideal S1024x1024 .f32) (p p' : Fin 1024) :
    k0_pay2 (F := Ideal) a w acc (ix2 p p') = acc (ix2 p p') + ∑ r : Fin 512, a (ix2 p r) * w (ix2 p' r) := by
  unfold k0_pay2
  rw [shapeCast_self]
  refine (addf_apply _ _ _).trans ?_
  exact congrArg (acc (ix2 p p') + ·) (product_apply _ _ p p')

/-- The closing step at entry (p, p'): the accumulator's entry plus the bias of column p', cut off below at zero. -/
theorem close_apply (acc : Vec Ideal S1024x1024 .f32) (bias : Vec Ideal S1x1024 .f32) (p p' : Fin 1024) :
    k0_pay3 (F := Ideal) acc bias (ix2 p p')
      = max (acc (ix2 p p') + bias (ix2 (0 : Fin 1) p')) (Ideal.ofBits .f32 0x00000000#32) := by
  unfold k0_pay3
  refine (maximumf_apply _ _ _).trans ?_
  refine congrArg₂ max ?_ rfl
  refine (addf_apply _ _ _).trans ?_
  refine congrArg (acc (ix2 p p') + ·) ?_
  rw [shapeCast_self]
  exact broadcastTo_apply _ broadcasts_S1x1024_S1024x1024 (ix2 p p') (ix2 (0 : Fin 1) p') (fun ax => by
    match ax with
    | ⟨0, _⟩ => show (0 : ℕ) = if (1 : ℕ) = 1 then 0 else p.val; rw [if_pos rfl]
    | ⟨1, _⟩ => show p'.val = if (1024 : ℕ) = 1 then 0 else p'.val; rw [if_neg (by decide)])

end Cert.KernelIdeal.Payload

end
-- ==== Proof.Pieces.lean ====
/-
  What each kind of grid point leaves behind, in terms of the point's arithmetic.

  The body meets three kinds of point. At the first point of a run of eight it stores zeros into the accumulator and
  then, reading them back, stores the first partial product on top. At a middle point it reads the accumulator the
  point before left and stores it back with this point's partial product added. At the last point it does the same
  and then stores, into the output block, the accumulator with the bias added and cut off below at zero.

  Each store covers its whole buffer, so what a buffer holds afterwards is the payload of the LAST store into it, and
  a load that follows a store reads that store's payload. Hence:

    first point   accumulator = step (inputs, weights, reset)
    middle point  accumulator = step (inputs, weights, accumulator before)
    last point    accumulator = step (inputs, weights, accumulator before),   output = close (that accumulator, bias)

  with `step`, `reset` and `close` the body's three payloads. These hold for any reading of the floats.
-/
import proofs.«128165_j3977139716222_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every store and load of the body starts at the origin of its buffer. -/
theorem origin : (![0, 0] : Fin 2 → Nat) = fun _ => 0 := funext fun a => by fin_cases a <;> rfl

/-- First point of a run: the accumulator ends at the first partial product added to the reset value. -/
theorem first_acc (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x512 .f32) (x1 : Vec F S1024x512 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x512) origin]

/-- Middle point: the accumulator ends at this point's partial product added to what the point before left. -/
theorem middle_acc (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x512 .f32) (x1 : Vec F S1024x512 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) origin]
  simp only [View.readAt_eq_ld, harg3.read_unread, harg4.read_unread, harg7.read_unread,
    View.ld_unit_zero (S := S1024x512) origin, View.ld_unit_zero (S := S1024x1024) origin]

/-- Last point: the accumulator likewise. -/
theorem last_acc (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x512 .f32) (x1 : Vec F S1024x512 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) origin]
  simp only [View.readAt_eq_ld, harg3.read_unread, harg4.read_unread, harg7.read_unread,
    View.ld_unit_zero (S := S1024x512) origin, View.ld_unit_zero (S := S1024x1024) origin]

/-- Last point: the output block is the closing step of the accumulator just stored and the bias block. -/
theorem last_out (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x512 .f32) (x1 : Vec F S1024x512 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) origin]
  simp only [View.readAt_eq_ld, harg3.read_unread, harg4.read_unread, harg5.read_unread, harg7.read_unread,
    View.readCov_unit_zero (S := S1024x1024) _ origin,
    View.ld_unit_zero (S := S1024x512) origin, View.ld_unit_zero (S := S1024x1024) origin, View.ld_unit_zero (S := S1x1024) origin]

end Cert.KernelIdeal.Pieces

end
-- ==== Proof.Blocks.lean ====
/-
  Which entries of the argument arrays a grid point's blocks hold.

  The 128 grid points are numbered t = 32 i + 8 j + k with i, j below 4 and k below 8, so i = t / 32,
  j = (t / 8) mod 4 and k = t mod 8. Point t stages

    * of the inputs the block of 1024 rows from row 1024 i and 512 columns from column 512 k;
    * of the weights the block of 1024 rows from row 1024 j and 512 columns from column 512 k;
    * of the biases, laid out beforehand as a single row of 4096, the 1024 columns from column 1024 j.

  Entry (p, r) of a block is therefore the array's entry (1024 · block row + p, 512 · block column + r): a block's
  coordinate is always index × extent + the coordinate inside the block. The relation between the point's number and
  the three block indices is decided once over the 128 points. Laying the 4096 biases out as one row moves nothing:
  entry (0, C) of the row is bias C.
-/
import proofs.«128165_j3977139716222_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-! ## The block indices at a point -/

/-- The input block at point t is block (t / 32, t mod 8). -/
theorem inputs_index : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)

/-- The weight block at point t is block ((t / 8) mod 4, t mod 8). -/
theorem weights_index : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)

/-- The bias block at point t is block (0, (t / 8) mod 4). -/
theorem bias_index : ∀ t : Fin cfg0.N, win0_2.index t 0 = 0 ∧ win0_2.index t 1 = t.val / 8 % 4 :=
  (by decide +kernel : ∀ t : Fin grid0.N, win0_2.index t 0 = 0 ∧ win0_2.index t 1 = t.val / 8 % 4)

/-- The output block at point t is block (t / 32, (t / 8) mod 4). -/
theorem output_index : ∀ t : Fin cfg0.N, win0_3.index t 0 = t.val / 32 ∧ win0_3.index t 1 = t.val / 8 % 4 :=
  (by decide +kernel : ∀ t : Fin grid0.N, win0_3.index t 0 = t.val / 32 ∧ win0_3.index t 1 = t.val / 8 % 4)

/-! ## The blocks, named at their literal types -/

/-- The input block staged at point t. -/
abbrev inputsBlock (c : Dev nD) (t : Fin cfg0.N) : Vec F S1024x512 .f32 := iblk m c 0 t
/-- The weight block staged at point t. -/
abbrev weightsBlock (c : Dev nD) (t : Fin cfg0.N) : Vec F S1024x512 .f32 := iblk m c 1 t
/-- The bias block staged at point t. -/
abbrev biasBlock (c : Dev nD) (t : Fin cfg0.N) : Vec F S1x1024 .f32 := iblk m c 2 t

/-! ## The blocks' entries -/

/-- Entry (p, r) of the input block at point t is the inputs' entry (1024 (t / 32) + p, 512 (t mod 8) + r). -/
theorem inputsBlock_apply (c : Dev nD) (t : Fin cfg0.N) (p : Fin 1024) (r : Fin 512)
    (hR : 1024 * (t.val / 32) + p.val < 4096) (hC : 512 * (t.val % 8) + r.val < 4096) :
    inputsBlock m c t (ix2 p r)
      = (m ((c : Thread nD τ).loc main_arg0) : Vec F S4096x4096 .f32) (ix2 ⟨1024 * (t.val / 32) + p.val, hR⟩ ⟨512 * (t.val % 8) + r.val, hC⟩) := by
  have hi := inputs_index t
  unfold inputsBlock iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = 1024 * (t.val / 32) + p.val; rw [hi.1]; omega
  | ⟨1, _⟩ => show win0_0.index t 1 * 512 + 1 * r.val = 512 * (t.val % 8) + r.val; rw [hi.2]; omega

/-- Entry (p', r) of the weight block at point t is the weights' entry (1024 ((t / 8) mod 4) + p', 512 (t mod 8) + r). -/
theorem weightsBlock_apply (c : Dev nD) (t : Fin cfg0.N) (p' : Fin 1024) (r : Fin 512)
    (hR : 1024 * (t.val / 8 % 4) + p'.val < 4096) (hC : 512 * (t.val % 8) + r.val < 4096) :
    weightsBlock m c t (ix2 p' r)
      = (m ((c : Thread nD τ).loc main_arg1) : Vec F S4096x4096 .f32) (ix2 ⟨1024 * (t.val / 8 % 4) + p'.val, hR⟩ ⟨512 * (t.val % 8) + r.val, hC⟩) := by
  have hi := weights_index t
  unfold weightsBlock iblk
  rw [View.read_apply]
  show V m c main_arg1 _ = m (c.tc.loc main_arg1) _
  rw [V_main_arg1]
  congr 1
  funext a
  apply Fin.ext
  match a with
  | ⟨0, _⟩ => show win0_1.index t 0 * 1024 + 1 * p'.val = 1024 * (t.val / 8 % 4) + p'.val; rw [hi.1]; omega
  | ⟨1, _⟩ => show win0_1.index t 1 * 512 + 1 * r.val = 512 * (t.val % 8) + r.val; rw [hi.2]; omega

end Cert.KernelIdeal.Blocks

end
-- ==== Proof.Acc.lean ====
/-
  What the accumulator holds after any grid point, at the ideal values.

  The points come in runs of eight: the run that contains point t starts at point 8 (t / 8), where the accumulator
  is reset, and every later point of the run adds its own partial product to what the point before left. Call the
  partial product of point n its ADDEND: at entry (p, p') it is the inner product of row p of the input block staged
  at n with row p' of the weight block staged there. Then after point t the accumulator's entry (p, p') is

      0 + ∑ s ≤ t mod 8, addend (8 (t / 8) + s) (p, p'),

  zero plus the addends of the run's points up to t. This is the unrolled form of the fold over the run: the first
  point contributes reset + addend with reset = 0, each later point accumulator + addend.

  At the last point of a run the output block is the closing step of the accumulator that point leaves and the
  staged bias block.
-/
import proofs.«128165_j3977139716222_1_alg».proof.Proof.Gen.KernelIdeal.Value
import proofs.«128165_j3977139716222_1_alg».proof.Proof.Payload
import proofs.«128165_j3977139716222_1_alg».proof.Proof.Pieces
import proofs.«128165_j3977139716222_1_alg».proof.Proof.Blocks

set_option maxRecDepth 16384

noncomputable section

open scoped BigOperators

namespace Cert.KernelIdeal.Acc

open Cert.KernelIdeal Cert.KernelIdeal.Gen Cert.KernelIdeal.Value Cert.KernelIdeal.Payload Cert.KernelIdeal.Pieces
  Cert.KernelIdeal.Blocks Idealize.ShloMosaic Idealize.ShloMosaic.TcCoe Idealize.SL.Sem Idealize.ShloMosaic.ValueIdx

variable (m : (ℓ : Loc nD τ sig) → Buf (Elt Ideal) ℓ)

/-! ## A point's addend -/

/-- Point n's partial product at a block entry: row (e 0) of its input block against row (e 1) of its weight block.
    Past the grid's last point it is zero, a value nothing below ever meets. -/
def addend (c : Dev nD) (n : ℕ) (e : S1024x1024.Idx) : EReal :=
  if h : n < cfg0.N then
    ∑ r : Fin 512, inputsBlock m c ⟨n, h⟩ (ix2 (e 0) r) * weightsBlock m c ⟨n, h⟩ (ix2 (e 1) r)
  else 0

/-- At a point of the grid and entry (p, p'). -/
theorem addend_of_lt (c : Dev nD) (n : ℕ) (h : n < cfg0.N) (p p' : Fin 1024) :
    addend m c n (ix2 p p') = ∑ r : Fin 512, inputsBlock m c ⟨n, h⟩ (ix2 p r) * weightsBlock m c ⟨n, h⟩ (ix2 p' r) :=
  dif_pos h

/-! ## One point's effect on the accumulator -/

/-- At the first point of a run the accumulator ends at zero plus that point's addend, whatever it held. -/
theorem first_point (c : Dev nD) (n : ℕ) (hb : n < cfg0.N) (h0 : n % 8 = 0) (acc : Vec Ideal S1024x1024 .f32)
    (p p' : Fin 1024) :
    scAt0_0 m c n hb acc (ix2 p p') = 0 + addend m c n (ix2 p p') := by
  have h1 : ¬n % 8 = 7 := by omega
  unfold scAt0_0
  rw [dif_pos h0, dif_neg h1]
  refine (congrFun (first_acc (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
    ((hcond0_0 (⟨n, hb⟩ : Fin cfg0.N)).mpr h0) (fun h => h1 ((hcond0_1 (⟨n, hb⟩ : Fin cfg0.N)).mp h))
    (iblk m c 0 (⟨n, hb⟩ : Fin cfg0.N)) (iblk m c 1 (⟨n, hb⟩ : Fin cfg0.N)) (iblk m c 2 (⟨n, hb⟩ : Fin cfg0.N))) (ix2 p p')).trans ?_
  refine (step_apply (inputsBlock m c ⟨n, hb⟩) (weightsBlock m c ⟨n, hb⟩) (k0_pay1 (F := Ideal)) p p').trans ?_
  rw [reset_apply, addend_of_lt m c n hb]

/-- At any later point of a run the accumulator ends at what it held plus that point's addend. -/
theorem later_point (c : Dev nD) (n : ℕ) (hb : n < cfg0.N) (h0 : ¬n % 8 = 0) (acc : Vec Ideal S1024x1024 .f32)
    (p p' : Fin 1024) :
    scAt0_0 m c n hb acc (ix2 p p') = acc (ix2 p p') + addend m c n (ix2 p p') := by
  unfold scAt0_0
  rw [dif_neg h0]
  by_cases h1 : n % 8 = 7
  · rw [dif_pos h1]
    refine (congrFun (last_acc (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h1)
      (iblk m c 0 (⟨n, hb⟩ : Fin cfg0.N)) (iblk m c 1 (⟨n, hb⟩ : Fin cfg0.N)) (iblk m c 2 (⟨n, hb⟩ : Fin cfg0.N)) acc) (ix2 p p')).trans ?_
    rw [addend_of_lt m c n hb]
    exact step_apply (inputsBlock m c ⟨n, hb⟩) (weightsBlock m c ⟨n, hb⟩) acc p p'
  · rw [dif_neg h1]
    refine (congrFun (middle_acc (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) (fun h => h1 ((hcond0_1 (⟨n, hb⟩ : Fin cfg0.N)).mp h))
      (iblk m c 0 (⟨n, hb⟩ : Fin cfg0.N)) (iblk m c 1 (⟨n, hb⟩ : Fin cfg0.N)) (iblk m c 2 (⟨n, hb⟩ : Fin cfg0.N)) acc) (ix2 p p')).trans ?_
    rw [addend_of_lt m c n hb]
    exact step_apply (inputsBlock m c ⟨n, hb⟩) (weightsBlock m c ⟨n, hb⟩) acc p p'

/-! ## The accumulator after a point -/

/-- After point t the accumulator's entry (p, p') is zero plus the addends of the points of t's run up to t. -/
theorem acc_after (c : Dev nD) (t : Fin cfg0.N) (p p' : Fin 1024) :
    (outsAt0 m c t.val t.isLt).2 (ix2 p p')
      = 0 + ∑ s ∈ Finset.range (t.val % 8 + 1), addend m c (8 * (t.val / 8) + s) (ix2 p p') := by
  rw [soutsAt0_0_eq m c t]
  exact Pipeline.accAt_add_apply (fun n h => scAt0_0 m c n h (VS0_0.read (Elt Ideal) VS0_0.junk)) (scAt0_0 m c)
    (fun _ => (0 : EReal)) (addend m c) (8 * (t.val / 8)) 7
    (fun h e => by
      obtain ⟨q, q', rfl⟩ : ∃ (q q' : Fin 1024), e = ix2 q q' := ⟨e 0, e 1, eq_ix2 e⟩
      exact first_point m c _ h (by omega) _ q q')
    (fun n h acc e hlt hle => by
      obtain ⟨q, q', rfl⟩ : ∃ (q q' : Fin 1024), e = ix2 q q' := ⟨e 0, e 1, eq_ix2 e⟩
      exact later_point m c n h (by omega) acc q q')
    (t.val % 8) (by omega) _ (ix2 p p')

/-! ## The output block at a run's last point -/

/-- At the last point of a run the output block is the closing step of the accumulator that point leaves and the
    bias block staged there. -/
theorem out_last (c : Dev nD) (t : Fin cfg0.N) (h1 : t.val % 8 = 7) :
    (outsAt0 m c t.val t.isLt).1 = k0_pay3 (outsAt0 m c t.val t.isLt).2 (biasBlock m c t) := by
  have h0 : ¬t.val % 8 = 0 := by omega
  rw [outsAt0_C m c t h0 h1]
  dsimp only
  exact (last_out (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2).trans
    (congrArg (fun a => k0_pay3 a (biasBlock m c t))
      (last_acc (F := Ideal) c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) ((hcond0_1 t).mpr h1) (iblk m c 0 t) (iblk m c 1 t) (iblk m c 2 t)
        (outsAt0 m c (t.val - 1) (Nat.lt_of_le_of_lt (Nat.sub_le _ _) t.isLt)).2).symm)

end Cert.KernelIdeal.Acc

end
-- ==== Proof.Bias.lean ====
/-
  The bias block's entries.

  Before the grid runs the 4096 biases are laid out as an array of one row and 4096 columns. Laying a vector out as
  a single row keeps the order of its elements, so entry (0, C) of the row is bias C. Point t stages the 1024 columns
  of that row from column 1024 ((t / 8) mod 4), so entry (0, p') of its bias block is bias 1024 ((t / 8) mod 4) + p'.
-/
import proofs.«128165_j3977139716222_1_alg».proof.Proof.Blocks

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-- When the grid starts, the one-row array holds the bias vector laid out anew. -/
theorem biasRow_eq (c : Dev nD) :
    (V m c main_v0 : Vec F S1x4096 .f32)
      = shapeCast S1x4096 (m ((c : Thread nD τ).loc main_arg2) : Vec F S4096 .f32) shapeCasts_S4096_S1x4096 := by
  dsimp only [V, hostOps0]
  after_results
  rfl

/-- Entry (0, C) of the one-row array is bias C: both are the element at place C of the row-major order. -/
theorem biasRow_apply (c : Dev nD) (C : Fin 4096) :
    (V m c main_v0 : Vec F S1x4096 .f32) (ix2 (0 : Fin 1) C) = (m ((c : Thread nD τ).loc main_arg2) : Vec F S4096 .f32) (ix1 C) := by
  rw [biasRow_eq]
  exact shapeCast_apply _ shapeCasts_S4096_S1x4096 (ix2 (0 : Fin 1) C) (ix1 C) (by
    rw [Shape.rowMajor_val_two, Shape.rowMajor_val_one]; show C.val = 0 * 4096 + C.val; omega)

/-- Entry (0, p') of the bias block at point t is bias 1024 ((t / 8) mod 4) + p'. -/
theorem biasBlock_apply (c : Dev nD) (t : Fin cfg0.N) (p' : Fin 1024) (hC : 1024 * (t.val / 8 % 4) + p'.val < 4096) :
    biasBlock m c t (ix2 (0 : Fin 1) p')
      = (m ((c : Thread nD τ).loc main_arg2) : Vec F S4096 .f32) (ix1 ⟨1024 * (t.val / 8 % 4) + p'.val, hC⟩) := by
  have hi := bias_index t
  unfold biasBlock iblk
  rw [View.read_apply]
  show V m c main_v0 _ = _
  refine Eq.trans ?_ (biasRow_apply m c ⟨1024 * (t.val / 8 % 4) + p'.val, hC⟩)
  congr 1
  funext a
  apply Fin.ext
  match a with
  | ⟨0, _⟩ => show win0_2.index t 0 * 1 + 1 * 0 = 0; rw [hi.1]
  | ⟨1, _⟩ => show win0_2.index t 1 * 1024 + 1 * p'.val = 1024 * (t.val / 8 % 4) + p'.val; rw [hi.2]; omega

end Cert.KernelIdeal.Blocks

end
-- ==== Proof.Final.lean ====
/-
  The kernel computes the layer.

  The result array is cut into sixteen blocks of 1024 × 1024, block (i, j) holding rows 1024 i … and columns
  1024 j …. Block (i, j) is written back once, by the last point t = 32 i + 8 j + 7 of the run of eight points that
  share it. What that point writes is, at entry (p, p'),

      max ((0 + ∑ s < 8, addend (8 (t / 8) + s) (p, p')) + bias (1024 j + p')) 0.

  The addend of the run's point number s is the inner product of row R = 1024 i + p of the inputs with row
  C = 1024 j + p' of the weights over the columns 512 s … 512 s + 511: the specification's strip s. The eight strips
  add up to the whole inner product of the two rows, and zero added in front changes nothing, so the entry is the
  layer's entry (R, C). The sixteen blocks cover the array, hence the array ends as the layer of the three arguments.
-/
import proofs.«128165_j3977139716222_1_alg».proof.Proof.Acc
import proofs.«128165_j3977139716222_1_alg».proof.Proof.Bias
import proofs.«128165_j3977139716222_1_alg».proof.Proof.Spec

set_option maxRecDepth 16384

noncomputable section

open scoped BigOperators

namespace Cert.KernelIdeal.Final

open Cert.KernelIdeal Cert.KernelIdeal.Gen Cert.KernelIdeal.Value Cert.KernelIdeal.Payload Cert.KernelIdeal.Acc
  Cert.KernelIdeal.Blocks Idealize.ShloMosaic Idealize.ShloMosaic.TcCoe Idealize.SL.Sem Idealize.ShloMosaic.ValueIdx
  Cert.ReluLayer
open Idealize.ShloMosaic.Pipeline (Dat)

variable (m : (ℓ : Loc nD τ sig) → Buf (Elt Ideal) ℓ) (ρ : Dev nD → PrngReg)

/-- Two rank-2 indices with equal coordinates are equal. -/
theorem ix2_ext {n0 n1 : Nat} {a a' : Fin n0} {b b' : Fin n1} (ha : a.val = a'.val) (hb : b.val = b'.val) :
    ix2 a b = ix2 a' b' := by
  rw [Fin.ext ha, Fin.ext hb]

/-! ## A run's addends are the strips of the two rows' inner product -/

/-- The addend of point number s of t's run, at block entry (p, p'), is strip s of the inner product of row
    1024 (t / 32) + p of the inputs with row 1024 ((t / 8) mod 4) + p' of the weights. -/
theorem addend_eq_strip (c : Dev nD) (t : Fin cfg0.N) (s : ℕ) (hs : s < 8) (p p' : Fin 1024)
    (hR : 1024 * (t.val / 32) + p.val < 4096) (hC : 1024 * (t.val / 8 % 4) + p'.val < 4096) :
    addend m c (8 * (t.val / 8) + s) (ix2 p p')
      = stripDot (m ((c : Thread nD τ).loc main_arg0)) (m ((c : Thread nD τ).loc main_arg1)) ⟨1024 * (t.val / 32) + p.val, hR⟩ ⟨1024 * (t.val / 8 % 4) + p'.val, hC⟩ s := by
  have hN : cfg0.N = 128 := N_0
  have ht : t.val < 128 := lt_of_lt_of_eq t.isLt hN
  have hn : 8 * (t.val / 8) + s < cfg0.N := lt_of_lt_of_eq (by omega) hN.symm
  have hp : p.val < 1024 := p.isLt
  have hp' : p'.val < 1024 := p'.isLt
  rw [addend_of_lt m c _ hn]
  unfold stripDot
  refine Finset.sum_congr rfl fun r _ => ?_
  have hr : r.val < 512 := r.isLt
  rw [inputsBlock_apply m c ⟨8 * (t.val / 8) + s, hn⟩ p r
      (by show 1024 * ((8 * (t.val / 8) + s) / 32) + p.val < 4096; omega)
      (by show 512 * ((8 * (t.val / 8) + s) % 8) + r.val < 4096; omega),
    weightsBlock_apply m c ⟨8 * (t.val / 8) + s, hn⟩ p' r
      (by show 1024 * ((8 * (t.val / 8) + s) / 8 % 4) + p'.val < 4096; omega)
      (by show 512 * ((8 * (t.val / 8) + s) % 8) + r.val < 4096; omega),
    at2_of_lt _ _ _ (show 512 * s + r.val < 4096 by omega), at2_of_lt _ _ _ (show 512 * s + r.val < 4096 by omega)]
  refine congrArg₂ (· * ·) (congrArg _ (ix2_ext ?_ ?_)) (congrArg _ (ix2_ext ?_ ?_))
  · show 1024 * ((8 * (t.val / 8) + s) / 32) + p.val = 1024 * (t.val / 32) + p.val; omega
  · show 512 * ((8 * (t.val / 8) + s) % 8) + r.val = 512 * s + r.val; omega
  · show 1024 * ((8 * (t.val / 8) + s) / 8 % 4) + p'.val = 1024 * (t.val / 8 % 4) + p'.val; omega
  · show 512 * ((8 * (t.val / 8) + s) % 8) + r.val = 512 * s + r.val; omega

/-! ## What a run's last point writes back -/

/-- The result array the kernel is shown to end with: the layer of the three arguments. -/
abbrev result (c : Dev nD) : Vec Ideal S4096x4096 .f32 := layer (m ((c : Thread nD τ).loc main_arg0)) (m ((c : Thread nD τ).loc main_arg1)) (m ((c : Thread nD τ).loc main_arg2))

/-- At the last point of a run the output block's entry (p, p') is the layer's entry at row 1024 (t / 32) + p and
    column 1024 ((t / 8) mod 4) + p'. -/
theorem out_entry (c : Dev nD) (t : Fin cfg0.N) (h1 : t.val % 8 = 7) (p p' : Fin 1024)
    (hR : 1024 * (t.val / 32) + p.val < 4096) (hC : 1024 * (t.val / 8 % 4) + p'.val < 4096) :
    (outsAt0 m c t.val t.isLt).1 (ix2 p p')
      = entry (m ((c : Thread nD τ).loc main_arg0)) (m ((c : Thread nD τ).loc main_arg1)) (m ((c : Thread nD τ).loc main_arg2)) ⟨1024 * (t.val / 32) + p.val, hR⟩ ⟨1024 * (t.val / 8 % 4) + p'.val, hC⟩ := by
  rw [out_last m c t h1]
  refine (close_apply _ _ p p').trans ?_
  rw [acc_after m c t p p', biasBlock_apply m c t p' hC]
  unfold entry
  rw [rowDot_eq_sum_strips, h1, zero_add]
  refine congrArg₂ max (congrArg₂ (· + ·) ?_ rfl) rfl
  exact Finset.sum_congr rfl fun s hs => addend_eq_strip m c t s (Finset.mem_range.mp hs) p p' hR hC

/-- An index of the result array lies in point t's output block iff each coordinate lies in the block's range. -/
theorem mem_block (t : Fin cfg0.N) (e : S4096x4096.Idx) :
    e ∈ ((cfg0.win 3).blk t).view.set
      ↔ ∀ a : Fin 2, win0_3.index t a * S1024x1024.size a ≤ (e a).val ∧ (e a).val < win0_3.index t a * S1024x1024.size a + S1024x1024.size a := by
  show e ∈ ((View.whole main_v1).slice (win0_3.rect t)).set ↔ _
  rw [View.set_slice_whole, Rect.mem_set_unit]
  exact Iff.rfl

/-- What a run's last point writes back is its block of the layer. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have hN : cfg0.N = 128 := N_0
  have ht : t.val < 128 := lt_of_lt_of_eq t.isLt hN
  have hi := output_index t
  rw [flushed3]
  funext y
  obtain ⟨p, p', rfl⟩ : ∃ (p p' : Fin 1024), y = ix2 p p' := ⟨y 0, y 1, eq_ix2 y⟩
  have hp : p.val < 1024 := p.isLt
  have hp' : p'.val < 1024 := p'.isLt
  have hR : 1024 * (t.val / 32) + p.val < 4096 := by omega
  have hC : 1024 * (t.val / 8 % 4) + p'.val < 4096 := by omega
  show (outsAt0 m c t.val t.isLt).1 (ix2 p p') = result m c (((cfg0.win 3).blk t).view.emb (ix2 p p'))
  rw [out_entry m c t h1 p p' hR hC]
  have he : ((cfg0.win 3).blk t).view.emb (ix2 p p')
      = ix2 (⟨1024 * (t.val / 32) + p.val, hR⟩ : Fin 4096) (⟨1024 * (t.val / 8 % 4) + p'.val, hC⟩ : Fin 4096) := by
    funext a
    apply Fin.ext
    match a with
    | ⟨0, _⟩ => show win0_3.index t 0 * 1024 + 1 * p.val = 1024 * (t.val / 32) + p.val; rw [hi.1]; omega
    | ⟨1, _⟩ => show win0_3.index t 1 * 1024 + 1 * p'.val = 1024 * (t.val / 8 % 4) + p'.val; rw [hi.2]; omega
  rw [he]
  rfl

/-! ## The blocks written back cover the array -/

/-- Every index of the result array lies in the output block of some run's last point: the index with row R and
    column C in that of point 32 (R / 1024) + 8 (C / 1024) + 7. -/
theorem cover (e : S4096x4096.Idx) :
    ∃ t : Fin cfg0.N, (cfg0.win 3).flush t = true ∧ e ∈ ((cfg0.win 3).blk t).view.set := by
  have hN : cfg0.N = 128 := N_0
  have hR : (e 0).val < 4096 := (e 0).isLt
  have hC : (e 1).val < 4096 := (e 1).isLt
  have hlt : 32 * ((e 0).val / 1024) + 8 * ((e 1).val / 1024) + 7 < cfg0.N := lt_of_lt_of_eq (by omega) hN.symm
  refine ⟨⟨32 * ((e 0).val / 1024) + 8 * ((e 1).val / 1024) + 7, hlt⟩, (flush0_3 _).mpr (by
    show (32 * ((e 0).val / 1024) + 8 * ((e 1).val / 1024) + 7) % 8 = 7; omega), ?_⟩
  have hi := output_index ⟨32 * ((e 0).val / 1024) + 8 * ((e 1).val / 1024) + 7, hlt⟩
  have hi0 : win0_3.index ⟨32 * ((e 0).val / 1024) + 8 * ((e 1).val / 1024) + 7, hlt⟩ 0 = (e 0).val / 1024 := by
    rw [hi.1]; show (32 * ((e 0).val / 1024) + 8 * ((e 1).val / 1024) + 7) / 32 = (e 0).val / 1024; omega
  have hi1 : win0_3.index ⟨32 * ((e 0).val / 1024) + 8 * ((e 1).val / 1024) + 7, hlt⟩ 1 = (e 1).val / 1024 := by
    rw [hi.2]; show (32 * ((e 0).val / 1024) + 8 * ((e 1).val / 1024) + 7) / 8 % 4 = (e 1).val / 1024; omega
  rw [mem_block]
  intro a
  match a with
  | ⟨0, _⟩ =>
    show win0_3.index _ 0 * 1024 ≤ (e 0).val ∧ (e 0).val < win0_3.index _ 0 * 1024 + 1024
    rw [hi0]; omega
  | ⟨1, _⟩ =>
    show win0_3.index _ 1 * 1024 ≤ (e 1).val ∧ (e 1).val < win0_3.index _ 1 * 1024 + 1024
    rw [hi1]; omega

/-! ## The array after the run, and the run -/

/-- After the run the result array is the layer of the three arguments. -/
theorem final (c : Dev nD) : (dats m 0 c).arrAt 3 cfg0.N = result m c :=
  (dats m 0 c).arrAt_eq_of_cover 3 (result m c) (fun t hf => flushed_eq m c t hf) cover

/-- Every weakly fair execution of the idealized kernel ends with the result array at the layer of the arguments
    and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Final

end
-- ==== Proof.lean ====
/-
  A dense layer with a cutoff at zero, computed two ways, is one function of its arguments.

  For 4096 × 4096 inputs x, 4096 × 4096 weights W and 4096 biases b both programs produce, at row R and column C,

      max (∑ q, x (R, q) · W (C, q) + b C) 0.

  The reference forms the inner product of row R of x and row C of W in one sum over the 4096 columns q
  (Proof/RefValue.lean). The kernel walks a grid of 4 × 4 × 8 points; the eight points that share an output block of
  1024 × 1024 entries each add one strip of 512 columns of that inner product to an accumulator that starts at
  zero, and the last of them adds the bias, cuts off at zero and writes the block back (Proof/Payload.lean: one
  point's arithmetic; Proof/Pieces.lean: what each kind of point leaves; Proof/Blocks.lean, Proof/Bias.lean: which
  entries of the arguments a point holds; Proof/Acc.lean: the accumulator after any point; Proof/Final.lean: the
  block written back, the cover, the whole array). Narrowing the factors to a shorter float format before the
  product changes nothing on the extended reals.

  The two agree because a sum over 8 · 512 columns is the sum of its eight strips' sums (Proof/Spec.lean): only
  commutativity and associativity of addition are used, which hold on the extended reals at the infinities too, so
  the inputs' finiteness is never opened. The kernel's idealization rewrote no operation, so that it preserves the
  kernel is the empty conjunction. Each program runs to its end with its arguments unchanged; the reference's frame
  is its run with the result dropped.
-/
import proofs.«128165_j3977139716222_1_alg».proof.Defs
import proofs.«128165_j3977139716222_1_alg».proof.Proof.Gen.Kernel
import proofs.«128165_j3977139716222_1_alg».proof.Proof.Gen.Kernel.Skeleton
import proofs.«128165_j3977139716222_1_alg».proof.Proof.Gen.Kernel.Launch
import proofs.«128165_j3977139716222_1_alg».proof.Proof.Gen.Kernel.Points
import proofs.«128165_j3977139716222_1_alg».proof.Proof.Gen.Kernel.Frame
import proofs.«128165_j3977139716222_1_alg».proof.Proof.Gen.KernelIdeal
import proofs.«128165_j3977139716222_1_alg».proof.Proof.Gen.KernelIdeal.Skeleton
import proofs.«128165_j3977139716222_1_alg».proof.Proof.Gen.KernelIdeal.Launch
import proofs.«128165_j3977139716222_1_alg».proof.Proof.Gen.KernelIdeal.Points
import proofs.«128165_j3977139716222_1_alg».proof.Proof.Gen.KernelIdeal.Frame
import proofs.«128165_j3977139716222_1_alg».proof.Proof.Gen.ReferenceIdeal
import proofs.«128165_j3977139716222_1_alg».proof.Proof.Gen.Pre_finite_inputs
import proofs.«128165_j3977139716222_1_alg».proof.Proof.Gen.KernelIdeal.Value
import proofs.«128165_j3977139716222_1_alg».proof.Proof.Gen.ReferenceIdeal.Run
import proofs.«128165_j3977139716222_1_alg».proof.Proof.Gen.ReferenceIdeal.Read
import proofs.«128165_j3977139716222_1_alg».proof.Proof.RefValue
import proofs.«128165_j3977139716222_1_alg».proof.Proof.Final
import Idealize.ShloMosaic.Adequacy
import Idealize.ShloMosaic.Init

noncomputable section

namespace Cert.Proof

open Idealize.ShloMosaic Idealize.ShloMosaic.TcCoe Idealize.SL.Sem

/-- The kernel as printed runs to its end and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the three arguments both programs end with the result array at the layer of those
    arguments: the kernel by its accumulation over strips, the reference by its single product. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
